-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S5000x128 : Shape := ⟨2, ![5000, 128]⟩
abbrev S1x128 : Shape := ⟨2, ![1, 128]⟩

abbrev nBuf : Space → Nat
  | .hbm => 68
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S100000, .f32⟩
  | .hbm, ⟨29, _⟩ => ⟨S640000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .bf16⟩
  | .hbm, ⟨38, _⟩ => ⟨S128x128, .bf16⟩
  | .hbm, ⟨39, _⟩ => ⟨S100000x128, .f32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x128, .f32⟩
  | .hbm, ⟨49, _⟩ => ⟨S_, .f32⟩
  | .hbm, ⟨50, _⟩ => ⟨S100000x128, .f32⟩
  | .hbm, ⟨51, _⟩ => ⟨S640000x1, .i32⟩
  | .hbm, ⟨52, _⟩ => ⟨S100000x128, .f32⟩
  | .hbm, ⟨53, _⟩ => ⟨S_, .f32⟩
  | .hbm, ⟨54, _⟩ => ⟨S640000, .f32⟩
  | .hbm, ⟨55, _⟩ => ⟨S_, .f32⟩
  | .hbm, ⟨56, _⟩ => ⟨S100000, .f32⟩
  | .hbm, ⟨57, _⟩ => ⟨S640000x1, .i32⟩
  | .hbm, ⟨58, _⟩ => ⟨S100000, .f32⟩
  | .hbm, ⟨59, _⟩ => ⟨S_, .f32⟩
  | .hbm, ⟨60, _⟩ => ⟨S100000, .f32⟩
  | .hbm, ⟨61, _⟩ => ⟨S100000, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S128x128, .bf16⟩
  | .hbm, ⟨66, _⟩ => ⟨S128x128, .bf16⟩
  | .hbm, ⟨67, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128, .f32⟩
  | .local _ .vmem, ⟨6, _⟩ => ⟨S128x128, .bf16⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .bf16⟩
  | .local _ .vmem, ⟨14, _⟩ => ⟨S128, .f32⟩
  | .local _ .vmem, ⟨15, _⟩ => ⟨S128x128, .bf16⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S100000, .f32⟩
  | .hbm, ⟨29, _⟩ => ⟨S640000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x128, .f32⟩
  | .hbm, ⟨55, _⟩ => ⟨S_, .f32⟩
  | .hbm, ⟨56, _⟩ => ⟨S100000x128, .f32⟩
  | .hbm, ⟨57, _⟩ => ⟨S640000x1, .i32⟩
  | .hbm, ⟨58, _⟩ => ⟨S100000x128, .f32⟩
  | .hbm, ⟨59, _⟩ => ⟨S_, .f32⟩
  | .hbm, ⟨60, _⟩ => ⟨S640000, .f32⟩
  | .hbm, ⟨61, _⟩ => ⟨S_, .f32⟩
  | .hbm, ⟨62, _⟩ => ⟨S100000, .f32⟩
  | .hbm, ⟨63, _⟩ => ⟨S640000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_v55 : Ref sig .tc := ⟨.hbm, 79, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.SageLayer.lean ====
/-
  One GraphSAGE combine step on whole arrays, as a function of its five operands, index by index over the
  extended reals: for a node `r` and an output feature `c`,

      layer mean x Wl Wr b (r, c) = max ( Σₖ mean(r,k)·Wl(k,c) + Σₖ x(r,k)·Wr(k,c) + b(c) , 0 ).

  `mean` is the neighbourhood mean of the node features, `x` the node's own features, `Wl`, `Wr` the two
  128 × 128 weight matrices and `b` the bias of the first; the outer `max` with zero is the rectifier.
  Both programs of this certificate compute two such steps; they differ in where the bias joins the sum
  (`(A + B) + b` here, `(A + b) + B` in the reference), and addition of extended reals is commutative and
  associative at every value, the infinities included, so no finiteness is needed to pass from one to the other.
-/
import Idealize.ShloMosaic.PureOps.Ideal
import Idealize.ShloMosaic.Lib.ValueIdx

noncomputable section

namespace Cert.Sage

open Idealize.ShloMosaic Idealize.ShloMosaic.ValueIdx

/-- Node features: 100000 nodes, 128 features each. -/
abbrev Feat : Type := (⟨2, ![100000, 128]⟩ : Shape).Idx → EReal
/-- A 128 × 128 weight matrix. -/
abbrev Mat : Type := (⟨2, ![128, 128]⟩ : Shape).Idx → EReal
/-- A bias row of 128 entries. -/
abbrev Row : Type := (⟨1, ![128]⟩ : Shape).Idx → EReal

/-- The two matrix products of one output entry, added: row `r` of `mean` against column `c` of `Wl`, plus row `r`
    of `x` against column `c` of `Wr`. -/
def lin (mean x : Feat) (Wl Wr : Mat) (r : Fin 100000) (c : Fin 128) : EReal :=
  (∑ k : Fin 128, mean (ix2 r k) * Wl (ix2 k c)) + (∑ k : Fin 128, x (ix2 r k) * Wr (ix2 k c))

/-- One combine step: the two products, the bias, the rectifier. -/
def layer (mean x : Feat) (Wl Wr : Mat) (b : Row) : Feat :=
  fun i => max (lin mean x Wl Wr (i 0) (i 1) + b (ix1 (i 1))) 0

theorem layer_apply (mean x : Feat) (Wl Wr : Mat) (b : Row) (r : Fin 100000) (c : Fin 128) :
    layer mean x Wl Wr b (ix2 r c) = max (lin mean x Wl Wr r c + b (ix1 c)) 0 := rfl

/-- The bias may join the sum between the two products: `(A + b) + B = (A + B) + b` on the extended reals. -/
theorem bias_between (A B b : EReal) : (A + b) + B = (A + B) + b := add_right_comm A b B

end Cert.Sage

end
-- ==== Proof.Aggregate.lean ====
/-
  The neighbourhood mean both programs compute on the host before each combine step, as ONE function of the node
  features `x` and the edge list `ei` (row 0: source nodes, row 1: destination nodes).

  Every edge carries its source node's feature row to its destination node, where the rows are added up
  (a gather by source, a scatter-add by destination into zeros); a second scatter-add of ones counts each node's
  incoming edges; the sum is divided by that count, at least one. A negative source number counts from the end
  (`+ 100000`), as jax's indexing has it. Nothing here is ever evaluated: the two programs apply this same function,
  and the certificate only uses that equal arguments give equal means.
-/
import proofs.«163238_j57131654971944_1_alg».proof.Proof.Gen.KernelIdeal
import proofs.«163238_j57131654971944_1_alg».proof.Proof.SageLayer

noncomputable section

namespace Cert.Sage

open Cert.KernelIdeal Cert.KernelIdeal.Gen Idealize.ShloMosaic

variable {F : FTy → Type} [FloatOps F]

/-- The source nodes, one per edge. -/
def srcRow (ei : (⟨S2x640000, .i32⟩ : BufTy).Contents (Elt F)) : (⟨S640000, .i32⟩ : BufTy).Contents (Elt F) :=
  shapeCast _ (extractStridedSlice S1x640000 ![0, 0] ei slices_S2x640000_S1x640000_0_0) shapeCasts_S1x640000_S640000

/-- The destination nodes, one per edge. -/
def dstRow (ei : (⟨S2x640000, .i32⟩ : BufTy).Contents (Elt F)) : (⟨S640000, .i32⟩ : BufTy).Contents (Elt F) :=
  shapeCast _ (extractStridedSlice S1x640000 ![1, 0] ei slices_S2x640000_S1x640000_1_0) shapeCasts_S1x640000_S640000

/-- The source nodes as a column of gather indices, a negative number moved up by the node count. -/
def srcCol (ei : (⟨S2x640000, .i32⟩ : BufTy).Contents (Elt F)) : (⟨S640000x1, .i32⟩ : BufTy).Contents (Elt F) :=
  broadcastInDim S640000x1 ![0] bcast_S640000_S640000x1_0
    (select (cmpi .slt (srcRow (F := F) ei) (broadcastInDim S640000 ![] bcast_S_S640000 (constantI S_ 32 0#32)))
      (addi (srcRow (F := F) ei) (broadcastInDim S640000 ![] bcast_S_S640000 (constantI S_ 32 100000#32)))
      (srcRow (F := F) ei))

/-- The destination nodes as a column of scatter indices. -/
def dstCol (ei : (⟨S2x640000, .i32⟩ : BufTy).Contents (Elt F)) : (⟨S640000x1, .i32⟩ : BufTy).Contents (Elt F) :=
  broadcastInDim S640000x1 ![0] bcast_S640000_S640000x1_0 (dstRow (F := F) ei)

/-- Per destination node, the sum of its incoming edges' source rows. -/
def summed (x : (⟨S100000x128, .f32⟩ : BufTy).Contents (Elt F)) (ei : (⟨S2x640000, .i32⟩ : BufTy).Contents (Elt F)) :
    (⟨S100000x128, .f32⟩ : BufTy).Contents (Elt F) :=
  Host.scatterAdd scatter_S100000x128_S640000x1_S640000x128_1_0_0_1
    (broadcastInDim S100000x128 ![] bcast_S_S100000x128 (constant S_ .f32 0x00000000#32))
    (dstCol (F := F) ei)
    (Host.gather gather_S100000x128_S640000x1_S640000x128_1_0_n_n_0_1_1128 x (srcCol (F := F) ei))

/-- Per destination node, the number of its incoming edges, at least one. -/
def degree (ei : (⟨S2x640000, .i32⟩ : BufTy).Contents (Elt F)) : (⟨S100000, .f32⟩ : BufTy).Contents (Elt F) :=
  maximumf
    (Host.scatterAdd scatter_S100000_S640000x1_S640000_n_0_0_1
      (broadcastInDim S100000 ![] bcast_S_S100000 (constant S_ .f32 0x00000000#32))
      (dstCol (F := F) ei)
      (broadcastInDim S640000 ![] bcast_S_S640000 (constant S_ .f32 0x3F800000#32)))
    (broadcastInDim S100000 ![] bcast_S_S100000 (constant S_ .f32 0x3F800000#32))

/-- The neighbourhood mean: the sum over the count, the count broadcast along the features. -/
def agg (x : (⟨S100000x128, .f32⟩ : BufTy).Contents (Elt F)) (ei : (⟨S2x640000, .i32⟩ : BufTy).Contents (Elt F)) :
    (⟨S100000x128, .f32⟩ : BufTy).Contents (Elt F) :=
  Host.divf (summed x ei)
    (broadcastInDim S100000x128 ![0, 1] bcast_S100000x1_S100000x128_0_1
      (broadcastInDim S100000x1 ![0] bcast_S100000_S100000x1_0 (degree (F := F) ei)))

/-! ## The two layers -/

/-- The first layer's result: the combine step of the node features and their neighbourhood mean. -/
def hidden (x : (⟨S100000x128, .f32⟩ : BufTy).Contents (Elt Ideal)) (ei : (⟨S2x640000, .i32⟩ : BufTy).Contents (Elt Ideal))
    (Wl0 : Mat) (b0 : Row) (Wr0 : Mat) : Feat :=
  layer (agg (F := Ideal) x ei) x Wl0 Wr0 b0

/-- The network: a second combine step over the first layer's result and ITS neighbourhood mean, the edges the same. -/
def net (x : (⟨S100000x128, .f32⟩ : BufTy).Contents (Elt Ideal)) (ei : (⟨S2x640000, .i32⟩ : BufTy).Contents (Elt Ideal))
    (Wl0 : Mat) (b0 : Row) (Wr0 : Mat) (Wl1 : Mat) (b1 : Row) (Wr1 : Mat) : Feat :=
  layer (agg (F := Ideal) (hidden x ei Wl0 b0 Wr0) ei) (hidden x ei Wl0 b0 Wr0) Wl1 Wr1 b1

end Cert.Sage

end
-- ==== Proof.KernelHost.lean ====
/-
  What each combine call finds in its operand arrays, read through the host operations of the kernel's program.

  Before the first call the host has computed the neighbourhood mean of the node features (`Cert.Sage.agg`) and has
  changed the first pair of weight matrices to the bf16 format (over the extended reals: nothing). Between the calls it
  computes the same mean of the first call's result array — over the edge rows it sliced out before the first call, which
  the first call does not touch — and changes the second pair of matrices likewise. No host operation writes an argument
  array. So the first call finds `agg x ei, x, Wl0, b0, Wr0` and the second `agg h ei, h, Wl1, b1, Wr1`, `h` being the
  first call's result array.
-/
import proofs.«163238_j57131654971944_1_alg».proof.Proof.Gen.KernelIdeal.Frame
import proofs.«163238_j57131654971944_1_alg».proof.Proof.Aggregate
import Idealize.ShloMosaic.Lib.StableHlo.Run
import Idealize.ShloMosaic.PureOps.Ideal

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## The first call's operands, from the launch memory -/

set_option maxHeartbeats 4000000 in
/-- The means: the neighbourhood mean of the node features. -/
theorem entry0_mean (c : Dev nD) :
    V1 m ρ c main_v22 = Cert.Sage.agg (F := Ideal) (m ((c : Thread nD τ).loc main_arg0)) (m ((c : Thread nD τ).loc main_arg1)) := by
  show StableHlo.after hostOps0 (W0 m ρ c) (Proc.devRef .tc main_v22) = _
  after_results_simp <;> rfl

/-- The node features, untouched. -/
theorem entry0_x (c : Dev nD) : V1 m ρ c main_arg0 = m ((c : Thread nD τ).loc main_arg0) := by
  show StableHlo.after hostOps0 (W0 m ρ c) (Proc.devRef .tc main_arg0) = _
  after_results_simp <;> rfl

/-- The first matrix: its change of format is the identity on the extended reals. -/
theorem entry0_wl (c : Dev nD) : V1 m ρ c main_v23 = m ((c : Thread nD τ).loc main_arg2) := by
  show StableHlo.after hostOps0 (W0 m ρ c) (Proc.devRef .tc main_v23) = _
  after_results_simp <;> rfl

/-- The second matrix likewise. -/
theorem entry0_wr (c : Dev nD) : V1 m ρ c main_v24 = m ((c : Thread nD τ).loc main_arg4) := by
  show StableHlo.after hostOps0 (W0 m ρ c) (Proc.devRef .tc main_v24) = _
  after_results_simp <;> rfl

/-- The bias, untouched. -/
theorem entry0_b (c : Dev nD) : V1 m ρ c main_arg3 = m ((c : Thread nD τ).loc main_arg3) := by
  show StableHlo.after hostOps0 (W0 m ρ c) (Proc.devRef .tc main_arg3) = _
  after_results_simp <;> rfl

/-! ## What the first call leaves for the second: the edge rows and the arguments as before it -/

/-- The source row of the edge list, sliced before the first call, is no array of that call. -/
theorem mid_src (c : Dev nD) : W2 m ρ c (Proc.devRef .tc main_v1) = Cert.Sage.srcRow (F := Ideal) (m ((c : Thread nD τ).loc main_arg1)) := by
  refine (W2_of_ne m ρ c main_v1 (by decide)).trans ?_
  show StableHlo.after hostOps0 (W0 m ρ c) (Proc.devRef .tc main_v1) = _
  after_results_simp <;> rfl

/-- The destination row likewise. -/
theorem mid_dst (c : Dev nD) : W2 m ρ c (Proc.devRef .tc main_v3) = Cert.Sage.dstRow (F := Ideal) (m ((c : Thread nD τ).loc main_arg1)) := by
  refine (W2_of_ne m ρ c main_v3 (by decide)).trans ?_
  show StableHlo.after hostOps0 (W0 m ρ c) (Proc.devRef .tc main_v3) = _
  after_results_simp <;> rfl

theorem mid_arg5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results_simp <;> rfl

theorem mid_arg6 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results_simp <;> rfl

theorem mid_arg7 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results_simp <;> rfl

/-! ## The second call's operands, from what the first call leaves -/

set_option maxHeartbeats 4000000 in
/-- The means: the neighbourhood mean of the first call's result array, over the same edges. -/
theorem entry1_mean (c : Dev nD) :
    V3 m ρ c main_v44 = Cert.Sage.agg (F := Ideal) (W2 m ρ c (Proc.devRef .tc main_v25)) (m ((c : Thread nD τ).loc main_arg1)) := by
  show StableHlo.after hostOps1 (W2 m ρ c) (Proc.devRef .tc main_v44) = _
  after_results_simp
  rw [mid_src, mid_dst]
  rfl

/-- The first call's result array, untouched by the host operations between the calls. -/
theorem entry1_x (c : Dev nD) : V3 m ρ c main_v25 = W2 m ρ c (Proc.devRef .tc main_v25) := by
  show StableHlo.after hostOps1 (W2 m ρ c) (Proc.devRef .tc main_v25) = _
  after_results_simp <;> rfl

theorem entry1_wl (c : Dev nD) : V3 m ρ c main_v45 = m ((c : Thread nD τ).loc main_arg5) := by
  show StableHlo.after hostOps1 (W2 m ρ c) (Proc.devRef .tc main_v45) = _
  after_results_simp
  rw [mid_arg5]
  rfl

theorem entry1_wr (c : Dev nD) : V3 m ρ c main_v46 = m ((c : Thread nD τ).loc main_arg7) := by
  show StableHlo.after hostOps1 (W2 m ρ c) (Proc.devRef .tc main_v46) = _
  after_results_simp
  rw [mid_arg7]
  rfl

theorem entry1_b (c : Dev nD) : V3 m ρ c main_arg6 = m ((c : Thread nD τ).loc main_arg6) := by
  show StableHlo.after hostOps1 (W2 m ρ c) (Proc.devRef .tc main_arg6) = _
  after_results_simp
  exact mid_arg6 m ρ c

end Cert.KernelIdeal.HostValue

end
-- ==== Proof.BlockValue.lean ====
/-
  What one grid point of either combine kernel stores, read at an entry.

  The body loads a 5000 × 128 block of the neighbourhood means, the matching block of the node features, the two
  128 × 128 weight matrices and the bias row; it multiplies each block by its matrix on the matrix unit (into a
  zero accumulator), adds the two products, adds the bias row to every row, and keeps the maximum with zero.
  Over the extended reals a change of float format is the identity and a product into a zero accumulator is the plain
  sum over the contracted axis, so the stored entry (p, q) is

      max ( Σₖ meanBlk(p,k)·Wl(k,q) + Σₖ xBlk(p,k)·Wr(k,q) + b(q) , 0 ).

  `block_entry` then places the block in the whole array: if the loaded blocks are rows 5000·t … 5000·t + 4999 of the
  whole operands, the stored entry (p, q) is entry (5000·t + p, q) of `Cert.Sage.layer` of the whole operands.
-/
import proofs.«163238_j57131654971944_1_alg».proof.Proof.Gen.KernelIdeal.Skeleton
import proofs.«163238_j57131654971944_1_alg».proof.Proof.SageLayer
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx

/-! ## The block product's operand indices: output entry (p, q), contraction index k ↦ (p, k) and (k, q) -/

theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 block times a 128 × 128 matrix into the zero accumulator, at entry (p, q): the sum over k of
    (p, k) times (k, q), whatever the operands' float formats. -/
theorem matmul_block {φ ψ : FTy} (l : FVec Ideal S5000x128 φ) (r : FVec Ideal S128x128 ψ) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]

/-! ## The two bodies' stored values at an entry -/

/-- The first layer's body. -/
theorem pay0_apply (mb xb : Vec Ideal S5000x128 .f32) (wl wr : Vec Ideal S128x128 .bf16) (b : Vec Ideal S128 .f32) (p : Fin 5000) (q : Fin 128) :
    k0_pay1 mb xb wl wr b (ix2 p q)
      = max (((∑ k : Fin 128, mb (ix2 p k) * wl (ix2 k q)) + (∑ k : Fin 128, xb (ix2 p k) * wr (ix2 k q))) + b (ix1 q)) 0 := by
  unfold k0_pay1
  simp only [maximumf_apply, addf_apply, broadcast_apply, shapeCast_self, matmul_block, truncf_apply,
    broadcastTo_1b_ab_apply, shapeCast_a_1a_apply, Ideal.ofBits_def, Ideal.ofBits_zero_f32]

/-- The second layer's body: the same arithmetic. -/
theorem pay1_apply (mb xb : Vec Ideal S5000x128 .f32) (wl wr : Vec Ideal S128x128 .bf16) (b : Vec Ideal S128 .f32) (p : Fin 5000) (q : Fin 128) :
    k1_pay1 mb xb wl wr b (ix2 p q)
      = max (((∑ k : Fin 128, mb (ix2 p k) * wl (ix2 k q)) + (∑ k : Fin 128, xb (ix2 p k) * wr (ix2 k q))) + b (ix1 q)) 0 := by
  unfold k1_pay1
  simp only [maximumf_apply, addf_apply, broadcast_apply, shapeCast_self, matmul_block, truncf_apply,
    broadcastTo_1b_ab_apply, shapeCast_a_1a_apply, Ideal.ofBits_def, Ideal.ofBits_zero_f32]

/-! ## A block's entry in the whole array -/

/-- If a body's stored value has the entries above (`hpay`), row `p` of its two row blocks is row `r` of the whole
    operands (`hm`, `hx`) and the small operands are the whole ones, then its entry (p, q) is entry (r, q) of the combine
    step of the whole operands. The block's entry `y` and the array's index `i` are given with their coordinates. -/
theorem block_entry (pay : Vec Ideal S5000x128 .f32 → Vec Ideal S5000x128 .f32 → Vec Ideal S128x128 .bf16 → Vec Ideal S128x128 .bf16 → Vec Ideal S128 .f32 → FVec Ideal S5000x128 .f32)
    (hpay : ∀ mb xb wl wr b (p : Fin 5000) (q : Fin 128), pay mb xb wl wr b (ix2 p q)
      = max (((∑ k : Fin 128, mb (ix2 p k) * wl (ix2 k q)) + (∑ k : Fin 128, xb (ix2 p k) * wr (ix2 k q))) + b (ix1 q)) 0)
    (mean x : Cert.Sage.Feat) (Wl Wr : Cert.Sage.Mat) (b : Cert.Sage.Row)
    (mb xb : Vec Ideal S5000x128 .f32) (wl wr : Vec Ideal S128x128 .bf16) (bb : Vec Ideal S128 .f32)
    (y : S5000x128.Idx) (i : S100000x128.Idx) (p : Fin 5000) (q : Fin 128) (r : Fin 100000)
    (hy : y = ix2 p q) (hi : i = ix2 r q)
    (hm : ∀ k : Fin 128, mb (ix2 p k) = mean (ix2 r k))
    (hx : ∀ k : Fin 128, xb (ix2 p k) = x (ix2 r k))
    (hwl : ∀ k : Fin 128, wl (ix2 k q) = Wl (ix2 k q))
    (hwr : ∀ k : Fin 128, wr (ix2 k q) = Wr (ix2 k q))
    (hb : bb (ix1 q) = b (ix1 q)) :
    pay mb xb wl wr bb y = Cert.Sage.layer mean x Wl Wr b i := by
  subst hy hi
  rw [hpay, Cert.Sage.layer_apply]
  unfold Cert.Sage.lin
  simp only [hm, hx, hwl, hwr, hb]

end Cert.KernelIdeal.BlockValue

end
-- ==== Proof.Region0Value.lean ====
/-
  The first combine call, as a whole-array function of the arrays it is entered with.

  The call walks 20 grid points; point `t` fetches rows 5000·t … 5000·t + 4999 of the neighbourhood means and of the node
  features, the whole of both weight matrices and of the bias, and writes back the same rows of the result. What it writes
  is, entry by entry, the combine step `Cert.Sage.layer` of the WHOLE operands at the moved-down row (the block product's
  row `p` only reads row `p` of each block). The 20 blocks tile the 100000 rows, so the result array after the call is the
  combine step of the arrays the call found, at every index. Stated at any contents `V` of the buffers at the call's entry.
-/
import proofs.«163238_j57131654971944_1_alg».proof.Proof.Gen.KernelIdeal.Frame
import proofs.«163238_j57131654971944_1_alg».proof.Proof.BlockValue
import Idealize.ShloMosaic.Lib.Pipeline.Value

set_option maxRecDepth 16384

noncomputable section

namespace Cert.KernelIdeal.Region0Value

open Cert.KernelIdeal Cert.KernelIdeal.Gen Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a <;> rfl

variable (V : (c : Dev nD) → (b : Ref sig .tc) → Buf (Elt Ideal) ((c : Thread nD τ).loc b))

/-- The printed index maps over the 20 grid points: the three row-blocked windows (means, features, result) are at row
    block `t`, column block 0; the two matrices and the bias are whole, at block 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` (rows 5000·t … 5000·t + 4999) of the combine step of the arrays the
    region is entered with. -/
theorem flushed0 (c : Dev nD) (t : Fin cfg0.N) :
    (dat0 V c).flushed 5 t = ((cfg0.win 5).blk t).view.read (Elt Ideal)
      (Cert.Sage.layer (V c main_v22) (V c main_arg0) (V c main_v23) (V c main_v24) (V c main_arg3)) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  obtain ⟨e00, e01, e10, e11, e20, e21, e30, e40, e41, e50, e51⟩ := idx0 t
  have ht : t.val < 20 := t.isLt
  funext j
  have hj0 : (j 0).val < 5000 := (j 0).isLt
  have hj1 : (j 1).val < 128 := (j 1).isLt
  refine BlockValue.block_entry k0_pay1 BlockValue.pay0_apply (V c main_v22) (V c main_arg0) (V c main_v23) (V c main_v24) (V c main_arg3)
    (iblk0 V c 0 t) (iblk0 V c 1 t) (iblk0 V c 2 t) (iblk0 V c 4 t) (iblk0 V c 3 t)
    j (((cfg0.win 5).blk t).view.emb j) (j 0) (j 1) ⟨t.val * 5000 + (j 0).val, by omega⟩ (eq_ix2 j) ?_ ?_ ?_ ?_ ?_ ?_
  · funext a; apply Fin.ext
    match a with
    | ⟨0, _⟩ => show win0_5.index t (0 : Fin 2) * 5000 + 1 * (j 0).val = t.val * 5000 + (j 0).val; omega
    | ⟨1, _⟩ => show win0_5.index t (1 : Fin 2) * 128 + 1 * (j 1).val = (j 1).val; omega
  · intro k
    show V c main_v22 (((cfg0.win 0).blk t).view.emb (ix2 (j 0) k)) = V c main_v22 (ix2 ⟨t.val * 5000 + (j 0).val, by omega⟩ k)
    refine congrArg (V c main_v22) (funext fun a => Fin.ext ?_)
    match a with
    | ⟨0, _⟩ => show win0_0.index t (0 : Fin 2) * 5000 + 1 * (j 0).val = t.val * 5000 + (j 0).val; omega
    | ⟨1, _⟩ => show win0_0.index t (1 : Fin 2) * 128 + 1 * k.val = k.val; omega
  · intro k
    show V c main_arg0 (((cfg0.win 1).blk t).view.emb (ix2 (j 0) k)) = V c main_arg0 (ix2 ⟨t.val * 5000 + (j 0).val, by omega⟩ k)
    refine congrArg (V c main_arg0) (funext fun a => Fin.ext ?_)
    match a with
    | ⟨0, _⟩ => show win0_1.index t (0 : Fin 2) * 5000 + 1 * (j 0).val = t.val * 5000 + (j 0).val; omega
    | ⟨1, _⟩ => show win0_1.index t (1 : Fin 2) * 128 + 1 * k.val = k.val; omega
  · intro k
    show V c main_v23 (((cfg0.win 2).blk t).view.emb (ix2 k (j 1))) = V c main_v23 (ix2 k (j 1))
    refine congrArg (V c main_v23) (funext fun a => Fin.ext ?_)
    match a with
    | ⟨0, _⟩ => show win0_2.index t (0 : Fin 2) * 128 + 1 * k.val = k.val; omega
    | ⟨1, _⟩ => show win0_2.index t (1 : Fin 2) * 128 + 1 * (j 1).val = (j 1).val; omega
  · intro k
    show V c main_v24 (((cfg0.win 4).blk t).view.emb (ix2 k (j 1))) = V c main_v24 (ix2 k (j 1))
    refine congrArg (V c main_v24) (funext fun a => Fin.ext ?_)
    match a with
    | ⟨0, _⟩ => show win0_4.index t (0 : Fin 2) * 128 + 1 * k.val = k.val; omega
    | ⟨1, _⟩ => show win0_4.index t (1 : Fin 2) * 128 + 1 * (j 1).val = (j 1).val; omega
  · show V c main_arg3 (((cfg0.win 3).blk t).view.emb (ix1 (j 1))) = V c main_arg3 (ix1 (j 1))
    refine congrArg (V c main_arg3) (funext fun a => Fin.ext ?_)
    match a with
    | ⟨0, _⟩ => show win0_3.index t (0 : Fin 1) * 128 + 1 * (j 1).val = (j 1).val; omega

/-- An index of the result array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25).slice (win0_5.rect t)).set ↔ _
  rw [View.set_slice_whole, Rect.mem_set_unit]
  exact Iff.rfl

/-- The 20 row blocks tile the result: row `r` is in block `r / 5000`. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hlt : (i 0).val / 5000 < 20 := by omega
  refine ⟨⟨(i 0).val / 5000, hlt⟩, flush0_5 _, ?_⟩
  obtain ⟨e00, e01, e10, e11, e20, e21, e30, e40, e41, e50, e51⟩ := idx0 ⟨(i 0).val / 5000, hlt⟩
  rw [mem_blk0]
  intro a
  match a with
  | ⟨0, _⟩ => show win0_5.index ⟨(i 0).val / 5000, hlt⟩ (0 : Fin 2) * 5000 ≤ (i 0).val ∧ (i 0).val < win0_5.index ⟨(i 0).val / 5000, hlt⟩ (0 : Fin 2) * 5000 + 5000; rw [e50]; show (i 0).val / 5000 * 5000 ≤ (i 0).val ∧ (i 0).val < (i 0).val / 5000 * 5000 + 5000; omega
  | ⟨1, _⟩ => show win0_5.index ⟨(i 0).val / 5000, hlt⟩ (1 : Fin 2) * 128 ≤ (i 1).val ∧ (i 1).val < win0_5.index ⟨(i 0).val / 5000, hlt⟩ (1 : Fin 2) * 128 + 128; omega

/-- THE RESULT ARRAY after the region: the combine step of the arrays it was entered with. -/
theorem array0 (c : Dev nD) :
    (dat0 V c).arrAt 5 cfg0.N
      = Cert.Sage.layer (V c main_v22) (V c main_arg0) (V c main_v23) (V c main_v24) (V c main_arg3) :=
  (dat0 V c).arrAt_eq_of_cover 5 _ (fun t _ => flushed0 V c t) (cover0)

end Cert.KernelIdeal.Region0Value

end
-- ==== Proof.Region1Value.lean ====
/-
  The second combine call, as a whole-array function of the arrays it is entered with.

  The call walks 20 grid points; point `t` fetches rows 5000·t … 5000·t + 4999 of the neighbourhood means and of the node
  features, the whole of both weight matrices and of the bias, and writes back the same rows of the result. What it writes
  is, entry by entry, the combine step `Cert.Sage.layer` of the WHOLE operands at the moved-down row (the block product's
  row `p` only reads row `p` of each block). The 20 blocks tile the 100000 rows, so the result array after the call is the
  combine step of the arrays the call found, at every index. Stated at any contents `V` of the buffers at the call's entry.
-/
import proofs.«163238_j57131654971944_1_alg».proof.Proof.Gen.KernelIdeal.Frame
import proofs.«163238_j57131654971944_1_alg».proof.Proof.BlockValue
import Idealize.ShloMosaic.Lib.Pipeline.Value

set_option maxRecDepth 16384

noncomputable section

namespace Cert.KernelIdeal.Region1Value

open Cert.KernelIdeal Cert.KernelIdeal.Gen Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a <;> rfl

variable (V : (c : Dev nD) → (b : Ref sig .tc) → Buf (Elt Ideal) ((c : Thread nD τ).loc b))

/-- The printed index maps over the 20 grid points: the three row-blocked windows (means, features, result) are at row
    block `t`, column block 0; the two matrices and the bias are whole, at block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` (rows 5000·t … 5000·t + 4999) of the combine step of the arrays the
    region is entered with. -/
theorem flushed1 (c : Dev nD) (t : Fin cfg1.N) :
    (dat1 V c).flushed 5 t = ((cfg1.win 5).blk t).view.read (Elt Ideal)
      (Cert.Sage.layer (V c main_v44) (V c main_v25) (V c main_v45) (V c main_v46) (V c main_arg6)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S128) hz1]
  obtain ⟨e00, e01, e10, e11, e20, e21, e30, e40, e41, e50, e51⟩ := idx1 t
  have ht : t.val < 20 := t.isLt
  funext j
  have hj0 : (j 0).val < 5000 := (j 0).isLt
  have hj1 : (j 1).val < 128 := (j 1).isLt
  refine BlockValue.block_entry k1_pay1 BlockValue.pay1_apply (V c main_v44) (V c main_v25) (V c main_v45) (V c main_v46) (V c main_arg6)
    (iblk1 V c 0 t) (iblk1 V c 1 t) (iblk1 V c 2 t) (iblk1 V c 4 t) (iblk1 V c 3 t)
    j (((cfg1.win 5).blk t).view.emb j) (j 0) (j 1) ⟨t.val * 5000 + (j 0).val, by omega⟩ (eq_ix2 j) ?_ ?_ ?_ ?_ ?_ ?_
  · funext a; apply Fin.ext
    match a with
    | ⟨0, _⟩ => show win1_5.index t (0 : Fin 2) * 5000 + 1 * (j 0).val = t.val * 5000 + (j 0).val; omega
    | ⟨1, _⟩ => show win1_5.index t (1 : Fin 2) * 128 + 1 * (j 1).val = (j 1).val; omega
  · intro k
    show V c main_v44 (((cfg1.win 0).blk t).view.emb (ix2 (j 0) k)) = V c main_v44 (ix2 ⟨t.val * 5000 + (j 0).val, by omega⟩ k)
    refine congrArg (V c main_v44) (funext fun a => Fin.ext ?_)
    match a with
    | ⟨0, _⟩ => show win1_0.index t (0 : Fin 2) * 5000 + 1 * (j 0).val = t.val * 5000 + (j 0).val; omega
    | ⟨1, _⟩ => show win1_0.index t (1 : Fin 2) * 128 + 1 * k.val = k.val; omega
  · intro k
    show V c main_v25 (((cfg1.win 1).blk t).view.emb (ix2 (j 0) k)) = V c main_v25 (ix2 ⟨t.val * 5000 + (j 0).val, by omega⟩ k)
    refine congrArg (V c main_v25) (funext fun a => Fin.ext ?_)
    match a with
    | ⟨0, _⟩ => show win1_1.index t (0 : Fin 2) * 5000 + 1 * (j 0).val = t.val * 5000 + (j 0).val; omega
    | ⟨1, _⟩ => show win1_1.index t (1 : Fin 2) * 128 + 1 * k.val = k.val; omega
  · intro k
    show V c main_v45 (((cfg1.win 2).blk t).view.emb (ix2 k (j 1))) = V c main_v45 (ix2 k (j 1))
    refine congrArg (V c main_v45) (funext fun a => Fin.ext ?_)
    match a with
    | ⟨0, _⟩ => show win1_2.index t (0 : Fin 2) * 128 + 1 * k.val = k.val; omega
    | ⟨1, _⟩ => show win1_2.index t (1 : Fin 2) * 128 + 1 * (j 1).val = (j 1).val; omega
  · intro k
    show V c main_v46 (((cfg1.win 4).blk t).view.emb (ix2 k (j 1))) = V c main_v46 (ix2 k (j 1))
    refine congrArg (V c main_v46) (funext fun a => Fin.ext ?_)
    match a with
    | ⟨0, _⟩ => show win1_4.index t (0 : Fin 2) * 128 + 1 * k.val = k.val; omega
    | ⟨1, _⟩ => show win1_4.index t (1 : Fin 2) * 128 + 1 * (j 1).val = (j 1).val; omega
  · show V c main_arg6 (((cfg1.win 3).blk t).view.emb (ix1 (j 1))) = V c main_arg6 (ix1 (j 1))
    refine congrArg (V c main_arg6) (funext fun a => Fin.ext ?_)
    match a with
    | ⟨0, _⟩ => show win1_3.index t (0 : Fin 1) * 128 + 1 * (j 1).val = (j 1).val; omega

/-- An index of the result array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v47).slice (win1_5.rect t)).set ↔ _
  rw [View.set_slice_whole, Rect.mem_set_unit]
  exact Iff.rfl

/-- The 20 row blocks tile the result: row `r` is in block `r / 5000`. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hlt : (i 0).val / 5000 < 20 := by omega
  refine ⟨⟨(i 0).val / 5000, hlt⟩, flush1_5 _, ?_⟩
  obtain ⟨e00, e01, e10, e11, e20, e21, e30, e40, e41, e50, e51⟩ := idx1 ⟨(i 0).val / 5000, hlt⟩
  rw [mem_blk1]
  intro a
  match a with
  | ⟨0, _⟩ => show win1_5.index ⟨(i 0).val / 5000, hlt⟩ (0 : Fin 2) * 5000 ≤ (i 0).val ∧ (i 0).val < win1_5.index ⟨(i 0).val / 5000, hlt⟩ (0 : Fin 2) * 5000 + 5000; rw [e50]; show (i 0).val / 5000 * 5000 ≤ (i 0).val ∧ (i 0).val < (i 0).val / 5000 * 5000 + 5000; omega
  | ⟨1, _⟩ => show win1_5.index ⟨(i 0).val / 5000, hlt⟩ (1 : Fin 2) * 128 ≤ (i 1).val ∧ (i 1).val < win1_5.index ⟨(i 0).val / 5000, hlt⟩ (1 : Fin 2) * 128 + 128; omega

/-- THE RESULT ARRAY after the region: the combine step of the arrays it was entered with. -/
theorem array1 (c : Dev nD) :
    (dat1 V c).arrAt 5 cfg1.N
      = Cert.Sage.layer (V c main_v44) (V c main_v25) (V c main_v45) (V c main_v46) (V c main_arg6) :=
  (dat1 V c).arrAt_eq_of_cover 5 _ (fun t _ => flushed1 V c t) (cover1)

end Cert.KernelIdeal.Region1Value

end
-- ==== Proof.KernelValue.lean ====
/-
  The kernel's program computes the network: its result array ends at `Cert.Sage.net` of the eight arguments.

  The first call's result array is the combine step of what that call found (Region0Value) — the neighbourhood mean of the
  node features, the features, the first weights and bias (KernelHost) — that is `Cert.Sage.hidden`. The second call finds the
  neighbourhood mean of that array, the array itself and the second weights and bias, so its result array, which is the
  program's result, is `Cert.Sage.net`. The run itself is the frame's launch with the result array named (KernelRun).
-/
import proofs.«163238_j57131654971944_1_alg».proof.Proof.KernelRun
import proofs.«163238_j57131654971944_1_alg».proof.Proof.KernelHost
import proofs.«163238_j57131654971944_1_alg».proof.Proof.Region0Value
import proofs.«163238_j57131654971944_1_alg».proof.Proof.Region1Value

set_option maxRecDepth 16384

noncomputable section

namespace Cert.KernelIdeal.NetValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- After the first call its result array holds the first layer's result. -/
theorem hidden_array (c : Dev nD) :
    W2 m ρ c (Proc.devRef .tc main_v25)
      = Cert.Sage.hidden (m ((c : Thread nD τ).loc main_arg0)) (m ((c : Thread nD τ).loc main_arg1)) (m ((c : Thread nD τ).loc main_arg2))
          (m ((c : Thread nD τ).loc main_arg3)) (m ((c : Thread nD τ).loc main_arg4)) := by
  refine (W2_arr m ρ c 5).trans ?_
  rw [Region0Value.array0 (V1 m ρ) c, HostValue.entry0_mean, HostValue.entry0_x, HostValue.entry0_wl, HostValue.entry0_wr,
    HostValue.entry0_b]
  rfl

/-- After the second call its result array holds the network's result. -/
theorem result_array (c : Dev nD) :
    W4 m ρ c (Proc.devRef .tc main_v47) = Cert.Sage.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ?_
  rw [Region1Value.array1 (V3 m ρ) c, HostValue.entry1_mean, HostValue.entry1_x, HostValue.entry1_wl, HostValue.entry1_wr,
    HostValue.entry1_b, hidden_array]
  rfl

/-- THE RUN, READ: every weakly fair execution ends with the result array at the network of the arguments, the arguments
    unchanged. -/
theorem run : θ_run defs (onTc (τ := τ) (main (F := Ideal))) ⟨m, fun _ => 0, ρ⟩ (fun r => ∀ c : Dev nD,
      r.2.mem ((c.tc : Thread nD τ).loc main_v47) = Cert.Sage.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_array m ρ c), (h c).2⟩) (Cert.KernelIdeal.Named.run_named m ρ)

end Cert.KernelIdeal.NetValue

end
-- ==== Proof.RefValue.lean ====
/-
  The reference, stage by stage, is two combine steps over neighbourhood means.

  Its first layer ends in the stage `val_main_v29`: the rectifier of `(mean·Wl0 + b0) + x·Wr0`, `mean` the stage that is
  the neighbourhood mean of the node features. Read at an entry (r, c) through the generated stage lemmas it is
  `max ((Σₖ mean(r,k)·Wl0(k,c) + b0(c)) + Σₖ x(r,k)·Wr0(k,c)) 0`, and moving the bias past the second product
  (`Cert.Sage.bias_between`) gives `Cert.Sage.layer`. The second layer is the same over the first layer's result, whose
  neighbourhood mean is the same function `Cert.Sage.agg` of it and of the edge list.
-/
import proofs.«163238_j57131654971944_1_alg».proof.Proof.Gen.ReferenceIdeal.Read
import proofs.«163238_j57131654971944_1_alg».proof.Proof.SageLayer
import proofs.«163238_j57131654971944_1_alg».proof.Proof.Aggregate

noncomputable section

namespace Cert.ReferenceIdeal.RefValue

open Cert.ReferenceIdeal Cert.ReferenceIdeal.Gen Cert.ReferenceIdeal.Read Idealize.ShloMosaic Idealize.ShloMosaic.ValueIdx

/-! ## The two mean stages are the one mean function -/

/-- The first layer's mean stage: the neighbourhood mean of the node features. -/
theorem mean1_eq (x0 : (⟨S100000x128, .f32⟩ : BufTy).Contents (Elt Ideal)) (x1 : (⟨S2x640000, .i32⟩ : BufTy).Contents (Elt Ideal)) :
    val_main_v22 (F := Ideal) x0 x1 = Cert.Sage.agg (F := Ideal) x0 x1 := rfl

/-- The second layer's mean stage: the neighbourhood mean of the first layer's result, over the same edges. -/
theorem mean2_eq (x0 : (⟨S100000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v48 (F := Ideal) x0 x1 x2 x3 x4 = Cert.Sage.agg (F := Ideal) (val_main_v29 (F := Ideal) x0 x1 x2 x3 x4) x1 := rfl

/-! ## The products' operand indices and the bias's index, at an entry (r, c) -/

theorem lidx_v23 (r : Fin 100000) (c k : Fin 128) : lidx_main_v23 (ix2 r c) k = ix2 r k :=
  funext fun a => Fin.ext (by match a with | ⟨0, _⟩ => rfl | ⟨1, _⟩ => rfl)
theorem ridx_v23 (r : Fin 100000) (c k : Fin 128) : ridx_main_v23 (ix2 r c) k = ix2 k c :=
  funext fun a => Fin.ext (by match a with | ⟨0, _⟩ => rfl | ⟨1, _⟩ => rfl)
theorem lidx_v27 (r : Fin 100000) (c k : Fin 128) : lidx_main_v27 (ix2 r c) k = ix2 r k :=
  funext fun a => Fin.ext (by match a with | ⟨0, _⟩ => rfl | ⟨1, _⟩ => rfl)
theorem ridx_v27 (r : Fin 100000) (c k : Fin 128) : ridx_main_v27 (ix2 r c) k = ix2 k c :=
  funext fun a => Fin.ext (by match a with | ⟨0, _⟩ => rfl | ⟨1, _⟩ => rfl)
theorem lidx_v49 (r : Fin 100000) (c k : Fin 128) : lidx_main_v49 (ix2 r c) k = ix2 r k :=
  funext fun a => Fin.ext (by match a with | ⟨0, _⟩ => rfl | ⟨1, _⟩ => rfl)
theorem ridx_v49 (r : Fin 100000) (c k : Fin 128) : ridx_main_v49 (ix2 r c) k = ix2 k c :=
  funext fun a => Fin.ext (by match a with | ⟨0, _⟩ => rfl | ⟨1, _⟩ => rfl)
theorem lidx_v53 (r : Fin 100000) (c k : Fin 128) : lidx_main_v53 (ix2 r c) k = ix2 r k :=
  funext fun a => Fin.ext (by match a with | ⟨0, _⟩ => rfl | ⟨1, _⟩ => rfl)
theorem ridx_v53 (r : Fin 100000) (c k : Fin 128) : ridx_main_v53 (ix2 r c) k = ix2 k c :=
  funext fun a => Fin.ext (by match a with | ⟨0, _⟩ => rfl | ⟨1, _⟩ => rfl)
theorem bias_idx0 (r : Fin 100000) (c : Fin 128) : idx_main_v24 (idx_main_v25 (ix2 r c)) = ix1 c :=
  funext fun a => Fin.ext (by match a with | ⟨0, _⟩ => rfl)
theorem bias_idx1 (r : Fin 100000) (c : Fin 128) : idx_main_v50 (idx_main_v51 (ix2 r c)) = ix1 c :=
  funext fun a => Fin.ext (by match a with | ⟨0, _⟩ => rfl)

/-! ## The two layers -/

/-- The first layer's result is the combine step of the node features and their neighbourhood mean. -/
theorem hidden_eq (x0 : (⟨S100000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v29 (F := Ideal) x0 x1 x2 x3 x4 = Cert.Sage.layer (Cert.Sage.agg (F := Ideal) x0 x1) x0 x2 x4 x3 := by
  funext i
  obtain ⟨r, c, rfl⟩ : ∃ (r : Fin 100000) (c : Fin 128), i = ix2 r c := ⟨i 0, i 1, eq_ix2 i⟩
  rw [val_main_v29_apply, val_main_v28_apply, val_main_v26_apply, val_main_v23_apply, val_main_v27_apply, val_main_v25_apply,
    val_main_v24_apply, val_main_call0_v0_apply, val_main_call0_cst_apply, mean1_eq, Cert.Sage.layer_apply]
  unfold Cert.Sage.lin
  simp only [lidx_v23, ridx_v23, lidx_v27, ridx_v27, bias_idx0, Ideal.maximumf_def, Ideal.addf_def, Ideal.ofBits_def,
    Ideal.ofBits_zero_f32]
  rw [Cert.Sage.bias_between]

/-- The reference's result is the combine step of the first layer's result and ITS neighbourhood mean: the network. -/
theorem result_eq (x0 : (⟨S100000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal)) (x4 x5 : (⟨S128x128, .f32⟩ : BufTy).Contents (Elt Ideal))
    (x6 : (⟨S128, .f32⟩ : BufTy).Contents (Elt Ideal)) (x7 : (⟨S128x128, .f32⟩ : BufTy).Contents (Elt Ideal)) :
    val_main_v55 (F := Ideal) x0 x1 x2 x3 x4 x5 x6 x7
      = Cert.Sage.net x0 x1 x2 x3 x4 x5 x6 x7 := by
  unfold Cert.Sage.net Cert.Sage.hidden
  rw [← hidden_eq x0 x1 x2 x3 x4]
  funext i
  obtain ⟨r, c, rfl⟩ : ∃ (r : Fin 100000) (c : Fin 128), i = ix2 r c := ⟨i 0, i 1, eq_ix2 i⟩
  rw [val_main_v55_apply, val_main_v54_apply, val_main_v52_apply, val_main_v49_apply, val_main_v53_apply, val_main_v51_apply,
    val_main_v50_apply, val_main_call1_v0_apply, val_main_call1_cst_apply, mean2_eq, Cert.Sage.layer_apply]
  unfold Cert.Sage.lin
  simp only [lidx_v49, ridx_v49, lidx_v53, ridx_v53, bias_idx1, Ideal.maximumf_def, Ideal.addf_def, Ideal.ofBits_def,
    Ideal.ofBits_zero_f32]
  rw [Cert.Sage.bias_between]

end Cert.ReferenceIdeal.RefValue

end
-- ==== Proof.lean ====
/-
  The certificate of a two-layer GraphSAGE network: a Pallas kernel for the combine step of each layer
  (`relu (mean·Wl + x·Wr + b)`, the matrix products on the matrix unit in bf16 with f32 accumulation, 5000 rows of the
  100000 nodes per grid point), the neighbourhood mean computed on the host before each call, against a plain jnp
  reference that computes `relu ((mean·Wl + b) + x·Wr)` with f32 products.

  Over the extended reals both programs end at ONE function of the eight arguments, `Cert.Sage.net` (Proof/Aggregate.lean):
  a change of float format is the identity, a product into a zero accumulator is the plain sum over the contracted axis,
  row block `t` of the kernel's product is rows 5000·t … of the whole product, and the bias may join the sum before or after the
  second product because addition of extended reals is commutative and associative at every value — no finiteness of
  the inputs is used. The neighbourhood mean (a gather along the edges' sources, a scatter-add onto their destinations, a
  division by the in-degree) is the same host term in both programs and is never opened.

  The kernel's side: Proof/BlockValue.lean (one grid point's stored block at an entry), Proof/Region0Value.lean and
  Proof/Region1Value.lean (each call's result array as the combine step of the arrays it finds), Proof/KernelHost.lean (what
  each call finds), Proof/KernelRun.lean (the frame's launch with the result array named), Proof/KernelValue.lean (the run's
  result is the network). The reference's side: Proof/RefValue.lean, over the generated run and its stage lemmas. The three
  frames are the generated ones; the idealization rewrote nothing, so `preserves` is trivial.
-/
import proofs.«163238_j57131654971944_1_alg».proof.Defs
import proofs.«163238_j57131654971944_1_alg».proof.Proof.Gen.Kernel
import proofs.«163238_j57131654971944_1_alg».proof.Proof.Gen.Kernel.Skeleton
import proofs.«163238_j57131654971944_1_alg».proof.Proof.Gen.Kernel.Launch
import proofs.«163238_j57131654971944_1_alg».proof.Proof.Gen.Kernel.Points
import proofs.«163238_j57131654971944_1_alg».proof.Proof.Gen.Kernel.Frame
import proofs.«163238_j57131654971944_1_alg».proof.Proof.Gen.KernelIdeal
import proofs.«163238_j57131654971944_1_alg».proof.Proof.Gen.KernelIdeal.Skeleton
import proofs.«163238_j57131654971944_1_alg».proof.Proof.Gen.KernelIdeal.Launch
import proofs.«163238_j57131654971944_1_alg».proof.Proof.Gen.KernelIdeal.Points
import proofs.«163238_j57131654971944_1_alg».proof.Proof.Gen.KernelIdeal.Frame
import proofs.«163238_j57131654971944_1_alg».proof.Proof.Gen.ReferenceIdeal
import proofs.«163238_j57131654971944_1_alg».proof.Proof.Gen.ReferenceIdeal.Run
import proofs.«163238_j57131654971944_1_alg».proof.Proof.Gen.ReferenceIdeal.Read
import proofs.«163238_j57131654971944_1_alg».proof.Proof.Gen.Pre_finite_inputs
import proofs.«163238_j57131654971944_1_alg».proof.Proof.KernelValue
import proofs.«163238_j57131654971944_1_alg».proof.Proof.RefValue
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference's frame is its generated run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs, from memories agreeing on the arguments, end with the network of the arguments in their
    result arrays: the kernel's by Proof/KernelValue.lean, the reference's by its generated run read through
    Proof/RefValue.lean, the arguments' agreement rewritten. -/
theorem algebraic : Cert.algebraic_KernelIdeal_ReferenceIdeal := by
  intro m ρ m' ρ' _ hagree
  refine ⟨fun c => Cert.Sage.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.KernelIdeal.NetValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v55_eq, Cert.ReferenceIdeal.RefValue.result_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
